-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x8 .f32) (main_arg5 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x32 : Shape := ⟨2, ![5000, 32]⟩
abbrev S5000x64 : Shape := ⟨2, ![5000, 64]⟩
abbrev S1700000x64 : Shape := ⟨2, ![1700000, 64]⟩
abbrev S1x64 : Shape := ⟨2, ![1, 64]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 65
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S1x8, .f32⟩
  | .hbm, ⟨64, _⟩ => ⟨S100000x8, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x8, .f32⟩
  | .local _ .vmem, ⟨9, _⟩ => ⟨S1x8, .f32⟩
  | .local _ .vmem, ⟨10, _⟩ => ⟨S5000x8, .f32⟩
  | .local _ .vmem, ⟨11, _⟩ => ⟨S5000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S8_S1x8 : S8.ShapeCasts S1x8
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S64x8.size a
  hwx1_2 : ∀ i : grid1.Coords, EltTy.bits .f32 = 32 ∨ (Rect.block (s := S64x8) S64x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x8 : Shape := ⟨2, ![100000, 8]⟩
abbrev S1x8 : Shape := ⟨2, ![1, 8]⟩

abbrev nBuf : Space → Nat
  | .hbm => 70
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x8, .f32⟩
  | .hbm, ⟨67, _⟩ => ⟨S1x8, .f32⟩
  | .hbm, ⟨68, _⟩ => ⟨S100000x8, .f32⟩
  | .hbm, ⟨69, _⟩ => ⟨S100000x8, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.Spec.lean ====
/-
  The two dense layers of the network, as functions of whole arrays, entry by entry.

  `lin1 x w` is the product of the node features `x` (100000 × 32) with the first weight matrix `w` (32 × 64):
  entry (a, b) is the sum over k of x(a, k) · w(k, b).

  `head agg b1 w2 b2` is the output layer applied to the aggregated messages `agg` (100000 × 64): the bias `b1` is
  added along each row, the hyperbolic tangent is taken entry by entry, the result is multiplied by the second
  weight matrix `w2` (64 × 8) and the bias `b2` is added along each row: entry (a, b) is
  (sum over k of tanh(agg(a, k) + b1(k)) · w2(k, b)) + b2(b).

  `headRows` is the same layer with each bias given as a table of one row, which is how the second kernel region
  receives them; a bias vector reshaped to one row is such a table, and then `headRows` is `head`.

  Both are stated over the extended reals; no algebraic law is used on them, so neither needs finite inputs.
-/
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The first linear layer: entry (a, b) of x · w. -/
def lin1 (x : (⟨2, ![100000, 32]⟩ : Shape).Idx → EReal) (w : (⟨2, ![32, 64]⟩ : Shape).Idx → EReal) :
    (⟨2, ![100000, 64]⟩ : Shape).Idx → EReal :=
  fun i => ∑ k : Fin 32, x (ix2 (i 0 : Fin 100000) k) * w (ix2 k (i 1 : Fin 64))

theorem lin1_apply (x : (⟨2, ![100000, 32]⟩ : Shape).Idx → EReal) (w : (⟨2, ![32, 64]⟩ : Shape).Idx → EReal)
    (a : Fin 100000) (b : Fin 64) : lin1 x w (ix2 a b) = ∑ k : Fin 32, x (ix2 a k) * w (ix2 k b) := rfl

/-- The output layer: entry (a, b) of tanh(agg + b1) · w2 + b2, the biases added along rows. -/
def head (agg : (⟨2, ![100000, 64]⟩ : Shape).Idx → EReal) (b1 : (⟨1, ![64]⟩ : Shape).Idx → EReal)
    (w2 : (⟨2, ![64, 8]⟩ : Shape).Idx → EReal) (b2 : (⟨1, ![8]⟩ : Shape).Idx → EReal) :
    (⟨2, ![100000, 8]⟩ : Shape).Idx → EReal :=
  fun i => (∑ k : Fin 64, Ideal.tanh (agg (ix2 (i 0 : Fin 100000) k) + b1 (ix1 k)) * w2 (ix2 k (i 1 : Fin 8)))
    + b2 (ix1 (i 1 : Fin 8))

theorem head_apply (agg : (⟨2, ![100000, 64]⟩ : Shape).Idx → EReal) (b1 : (⟨1, ![64]⟩ : Shape).Idx → EReal)
    (w2 : (⟨2, ![64, 8]⟩ : Shape).Idx → EReal) (b2 : (⟨1, ![8]⟩ : Shape).Idx → EReal) (a : Fin 100000) (b : Fin 8) :
    head agg b1 w2 b2 (ix2 a b)
      = (∑ k : Fin 64, Ideal.tanh (agg (ix2 a k) + b1 (ix1 k)) * w2 (ix2 k b)) + b2 (ix1 b) := rfl

/-- The output layer with each bias a table of one row: entry (a, b) is
    (sum over k of tanh(agg(a, k) + b1r(0, k)) · w2(k, b)) + b2r(0, b). -/
def headRows (agg : (⟨2, ![100000, 64]⟩ : Shape).Idx → EReal) (b1r : (⟨2, ![1, 64]⟩ : Shape).Idx → EReal)
    (w2 : (⟨2, ![64, 8]⟩ : Shape).Idx → EReal) (b2r : (⟨2, ![1, 8]⟩ : Shape).Idx → EReal) :
    (⟨2, ![100000, 8]⟩ : Shape).Idx → EReal :=
  fun i => (∑ k : Fin 64, Ideal.tanh (agg (ix2 (i 0 : Fin 100000) k) + b1r (ix2 (0 : Fin 1) k)) * w2 (ix2 k (i 1 : Fin 8)))
    + b2r (ix2 (0 : Fin 1) (i 1 : Fin 8))

theorem headRows_apply (agg : (⟨2, ![100000, 64]⟩ : Shape).Idx → EReal) (b1r : (⟨2, ![1, 64]⟩ : Shape).Idx → EReal)
    (w2 : (⟨2, ![64, 8]⟩ : Shape).Idx → EReal) (b2r : (⟨2, ![1, 8]⟩ : Shape).Idx → EReal) (a : Fin 100000) (b : Fin 8) :
    headRows agg b1r w2 b2r (ix2 a b)
      = (∑ k : Fin 64, Ideal.tanh (agg (ix2 a k) + b1r (ix2 (0 : Fin 1) k)) * w2 (ix2 k b)) + b2r (ix2 (0 : Fin 1) b) := rfl

/-- A vector of n entries reshaped to one row of n entries, at entry (0, k): the vector's entry k (both have
    row-major position k). -/
theorem reshape_row {n : Nat} (b : (⟨1, ![n]⟩ : Shape).Idx → EReal) (h : (⟨1, ![n]⟩ : Shape).ShapeCasts ⟨2, ![1, n]⟩)
    (k : Fin n) : shapeCast ⟨2, ![1, n]⟩ b h (ix2 (0 : Fin 1) k) = b (ix1 k) :=
  shapeCast_apply b h (ix2 (0 : Fin 1) k) (ix1 k) (by
    rw [Shape.rowMajor_val_one, Shape.rowMajor_val_two]
    show k.val = 0 * n + k.val
    omega)

/-- With each one-row table the reshape of a bias vector, `headRows` is `head`. -/
theorem headRows_reshape (agg : (⟨2, ![100000, 64]⟩ : Shape).Idx → EReal) (b1 : (⟨1, ![64]⟩ : Shape).Idx → EReal)
    (w2 : (⟨2, ![64, 8]⟩ : Shape).Idx → EReal) (b2 : (⟨1, ![8]⟩ : Shape).Idx → EReal)
    (h1 : (⟨1, ![64]⟩ : Shape).ShapeCasts ⟨2, ![1, 64]⟩) (h2 : (⟨1, ![8]⟩ : Shape).ShapeCasts ⟨2, ![1, 8]⟩) :
    headRows agg (shapeCast ⟨2, ![1, 64]⟩ b1 h1) w2 (shapeCast ⟨2, ![1, 8]⟩ b2 h2) = head agg b1 w2 b2 := by
  funext i
  unfold headRows head
  refine congrArg₂ (· + ·) (Finset.sum_congr rfl fun k _ => ?_) (reshape_row b2 h2 _)
  rw [reshape_row]

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RefValue.lean ====
/-
  The reference, read as the specification.

  Between its two dense layers the reference gathers the transformed features along the edge sources, scales each
  message by the edge's normalisation and adds the messages up at the edge targets. That stretch is named here once,
  `aggregate h e`, as a function of the transformed features `h` and the edge list `e`, for any float values; it is
  never opened: the kernel's program applies the same operations, and the two sides are compared with it folded.

  At the ideal values the first dense layer (a `dot_general`) is `Spec.lin1`, and everything after the aggregation
  (add the first bias along rows, tanh, a `dot_general` with the second weight matrix, add the second bias along
  rows) is `Spec.head`: a `dot_general` is the plain sum, the host's tanh is the extended reals' tanh, and each bias
  broadcast reads the bias at the column.
-/
import proofs.«120500_j472446402806_1_alg».proof.Proof.RefRead
import proofs.«120500_j472446402806_1_alg».proof.Proof.Spec
import proofs.«120500_j472446402806_1_alg».proof.Proof.LibPlainDot

noncomputable section

namespace Cert.ReferenceIdeal.RefValue

open Cert.ReferenceIdeal Cert.ReferenceIdeal.Read Idealize.ShloMosaic Idealize.ShloMosaic.ValueIdx

section AnyFloats

variable {F : FTy → Type} [FloatOps F]

/-- Gather along the sources, scale by the normalisation, add up at the targets: the stretch between the two dense
    layers, as a function of the transformed features and the edge list. -/
def aggregate (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (val_main_v42 (F := F)) (val_main_v43 (F := F) e)
    (mulf (Host.gather gather_S100000x64_S1700000x1_S1700000x64_1_0_n_n_0_1_164 h (val_main_v37 (F := F) e))
      (val_main_v40 (F := F) e))

/-- The reference's aggregated messages are `aggregate` of its transformed features and the edge list. -/
theorem messages_eq (x0 : (⟨S100000x32, .f32⟩ : BufTy).Contents (Elt F)) (x1 : (⟨S2x1600000, .i32⟩ : BufTy).Contents (Elt F))
    (x2 : (⟨S32x64, .f32⟩ : BufTy).Contents (Elt F)) :
    val_main_v44 (F := F) x0 x1 x2 = aggregate (val_main_v31 (F := F) x0 x2) x1 := rfl

end AnyFloats

/-- The reference's first dense layer is the specification's. -/
theorem lin1_eq (x0 : (⟨S100000x32, .f32⟩ : BufTy).Contents (Elt Ideal)) (x2 : (⟨S32x64, .f32⟩ : BufTy).Contents (Elt Ideal)) :
    val_main_v31 (F := Ideal) x0 x2 = Cert.Spec.lin1 x0 x2 := by
  funext i
  obtain ⟨a, b, rfl⟩ : ∃ (a : Fin 100000) (b : Fin 64), i = ix2 a b := ⟨i 0, i 1, eq_ix2 i⟩
  unfold val_main_v31
  exact Cert.LibPlainDot.dotGeneral_apply dot_S100000x32_S32x64_S100000x64_1_0_0_1_n_n rfl rfl rfl rfl rfl rfl none _ x0 x2 a b

/-- The reference's result is the specification's output layer of its aggregated messages. -/
theorem head_eq (x0 : (⟨S100000x32, .f32⟩ : BufTy).Contents (Elt Ideal)) (x1 : (⟨S2x1600000, .i32⟩ : BufTy).Contents (Elt Ideal))
    (x2 : (⟨S32x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) :
    val_main_v52 (F := Ideal) x0 x1 x2 x3 x4 x5 = Cert.Spec.head (val_main_v44 (F := Ideal) x0 x1 x2) x3 x4 x5 := by
  funext i
  obtain ⟨a, b, rfl⟩ : ∃ (a : Fin 100000) (b : Fin 8), i = ix2 a b := ⟨i 0, i 1, eq_ix2 i⟩
  have eb2 : idx_main_v50 (idx_main_v51 (ix2 a b)) = ix1 b := funext fun d => match d with | ⟨0, _⟩ => rfl
  rw [val_main_v52_apply, val_main_v51_apply, val_main_v50_apply, eb2, Cert.Spec.head_apply, Ideal.addf_def]
  unfold val_main_v49
  refine congrArg (· + x5 (ix1 b))
    ((Cert.LibPlainDot.dotGeneral_apply dot_S100000x64_S64x8_S100000x8_1_0_0_1_n_n rfl rfl rfl rfl rfl rfl none _ _ x4 a b).trans
      (Finset.sum_congr rfl fun k _ => ?_))
  have eb1 : idx_main_v45 (idx_main_v46 (ix2 a k)) = ix1 k := funext fun d => match d with | ⟨0, _⟩ => rfl
  rw [val_main_v48_apply, val_main_v47_apply, val_main_v46_apply, val_main_v45_apply, eb1]
  generalize val_main_v44 (F := Ideal) x0 x1 x2 (ix2 a k) = z
  rfl

/-- The whole network as one function of the six argument arrays: the first dense layer, the aggregation over the
    edges, the output layer. -/
def network (x0 : (⟨S100000x32, .f32⟩ : BufTy).Contents (Elt Ideal)) (x1 : (⟨S2x1600000, .i32⟩ : BufTy).Contents (Elt Ideal))
    (x2 : (⟨S32x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) :
    (⟨S100000x8, .f32⟩ : BufTy).Contents (Elt Ideal) :=
  Cert.Spec.head (aggregate (F := Ideal) (Cert.Spec.lin1 x0 x2) x1) x3 x4 x5

/-- The reference computes the network. -/
theorem network_eq (x0 : (⟨S100000x32, .f32⟩ : BufTy).Contents (Elt Ideal)) (x1 : (⟨S2x1600000, .i32⟩ : BufTy).Contents (Elt Ideal))
    (x2 : (⟨S32x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) :
    val_main_v52 (F := Ideal) x0 x1 x2 x3 x4 x5 = network x0 x1 x2 x3 x4 x5 := by
  rw [head_eq, messages_eq, lin1_eq]
  rfl

end Cert.ReferenceIdeal.RefValue

end
-- ==== Proof.KernelMid.lean ====
/-
  The kernel program's host stretches, read back, for any float values.

  Before the first region the program builds, from the edge list alone, the source and target lists with the self
  loops appended and the per-edge normalisation; between the regions it gathers the first region's product along the
  sources, scales it by the normalisation and adds it up at the targets, and reshapes the two bias vectors to one-row
  tables. These are the very operations of the reference, so each buffer is identified with the reference's stage
  of the same number, as a function of the edge list, and the aggregated messages are the reference's `aggregate` of
  the first region's product and the edge list. No operation is opened: the two composed terms are the same text.

  A buffer that no operation of a stretch writes keeps its contents across it, and the first region changes only
  its own output array; so the argument arrays and the lists built before the region are still what they were when
  the second stretch reads them.
-/
import proofs.«120500_j472446402806_1_alg».proof.Proof.Gen.KernelIdeal.Frame
import proofs.«120500_j472446402806_1_alg».proof.Proof.RefValue
import Idealize.ShloMosaic.Lib.StableHlo.Run

set_option maxRecDepth 16384

noncomputable section

namespace Cert.KernelIdeal.Mid

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## The argument arrays, wherever they are read -/

set_option maxHeartbeats 1000000 in
/-- The feature array when the first region is entered. -/
theorem features_V3 (c : Dev nD) : V3 m ρ c main_arg0 = m ((c : Thread nD τ).loc main_arg0) := by
  show after hostOps0_2 (after hostOps0_1 (after hostOps0 (W0 m ρ c))) (Proc.devRef .tc main_arg0) = _
  after_results_simp <;> rfl

set_option maxHeartbeats 1000000 in
/-- The first weight matrix when the first region is entered. -/
theorem weights1_V3 (c : Dev nD) : V3 m ρ c main_arg2 = m ((c : Thread nD τ).loc main_arg2) := by
  show after hostOps0_2 (after hostOps0_1 (after hostOps0 (W0 m ρ c))) (Proc.devRef .tc main_arg2) = _
  after_results_simp <;> rfl

set_option maxHeartbeats 1000000 in
/-- The first bias vector after the first region. -/
theorem bias1_W4 (c : Dev nD) : W4 m ρ c (Proc.devRef .tc main_arg3) = m ((c : Thread nD τ).loc main_arg3) := by
  rw [W4_of_ne m ρ c main_arg3 (by decide)]
  show after hostOps0_2 (after hostOps0_1 (after hostOps0 (W0 m ρ c))) (Proc.devRef .tc main_arg3) = _
  after_results_simp <;> rfl

set_option maxHeartbeats 1000000 in
/-- The second weight matrix after the first region. -/
theorem weights2_W4 (c : Dev nD) : W4 m ρ c (Proc.devRef .tc main_arg4) = m ((c : Thread nD τ).loc main_arg4) := by
  rw [W4_of_ne m ρ c main_arg4 (by decide)]
  show after hostOps0_2 (after hostOps0_1 (after hostOps0 (W0 m ρ c))) (Proc.devRef .tc main_arg4) = _
  after_results_simp <;> rfl

set_option maxHeartbeats 1000000 in
/-- The second bias vector after the first region. -/
theorem bias2_W4 (c : Dev nD) : W4 m ρ c (Proc.devRef .tc main_arg5) = m ((c : Thread nD τ).loc main_arg5) := by
  rw [W4_of_ne m ρ c main_arg5 (by decide)]
  show after hostOps0_2 (after hostOps0_1 (after hostOps0 (W0 m ρ c))) (Proc.devRef .tc main_arg5) = _
  after_results_simp <;> rfl

/-! ## The lists built from the edge list, after the first region -/

set_option maxHeartbeats 4000000 in
/-- The sources with the self loops appended. -/
theorem sources_W4 (c : Dev nD) :
    W4 m ρ c (Proc.devRef .tc main_v3) = Cert.ReferenceIdeal.Read.val_main_v3 (F := F) (m ((c : Thread nD τ).loc main_arg1)) := by
  rw [W4_of_ne m ρ c main_v3 (by decide)]
  show after hostOps0_2 (after hostOps0_1 (after hostOps0 (W0 m ρ c))) (Proc.devRef .tc main_v3) = _
  after_results_simp <;> rfl

set_option maxHeartbeats 4000000 in
/-- The targets with the self loops appended. -/
theorem targets_W4 (c : Dev nD) :
    W4 m ρ c (Proc.devRef .tc main_v6) = Cert.ReferenceIdeal.Read.val_main_v6 (F := F) (m ((c : Thread nD τ).loc main_arg1)) := by
  rw [W4_of_ne m ρ c main_v6 (by decide)]
  show after hostOps0_2 (after hostOps0_1 (after hostOps0 (W0 m ρ c))) (Proc.devRef .tc main_v6) = _
  after_results_simp <;> rfl

set_option maxHeartbeats 8000000 in
/-- The per-edge normalisation. -/
theorem norm_W4 (c : Dev nD) :
    W4 m ρ c (Proc.devRef .tc main_v30) = Cert.ReferenceIdeal.Read.val_main_v30 (F := F) (m ((c : Thread nD τ).loc main_arg1)) := by
  rw [W4_of_ne m ρ c main_v30 (by decide)]
  show after hostOps0_2 (after hostOps0_1 (after hostOps0 (W0 m ρ c))) (Proc.devRef .tc main_v30) = _
  after_results_simp <;> rfl

/-! ## What the second region is entered from -/

set_option maxHeartbeats 8000000 in
/-- The aggregated messages are the reference's aggregation of the first region's product and the edge list. -/
theorem messages_V5 (c : Dev nD) :
    V5 m ρ c main_v44
      = Cert.ReferenceIdeal.RefValue.aggregate (F := F) (V4 m ρ c main_v31) (m ((c : Thread nD τ).loc main_arg1)) := by
  show after hostOps1 (W4 m ρ c) (Proc.devRef .tc main_v44) = _
  after_results_simp
  rw [sources_W4, targets_W4, norm_W4]
  rfl

set_option maxHeartbeats 1000000 in
/-- The first bias as a one-row table. -/
theorem bias1_V5 (c : Dev nD) :
    V5 m ρ c main_v45 = shapeCast S1x64 (m ((c : Thread nD τ).loc main_arg3)) shapeCasts_S64_S1x64 := by
  show after hostOps1 (W4 m ρ c) (Proc.devRef .tc main_v45) = _
  after_results_simp
  rw [bias1_W4]
  rfl

set_option maxHeartbeats 1000000 in
/-- The second bias as a one-row table. -/
theorem bias2_V5 (c : Dev nD) :
    V5 m ρ c main_v46 = shapeCast S1x8 (m ((c : Thread nD τ).loc main_arg5)) shapeCasts_S8_S1x8 := by
  show after hostOps1 (W4 m ρ c) (Proc.devRef .tc main_v46) = _
  after_results_simp
  rw [bias2_W4]
  rfl

set_option maxHeartbeats 1000000 in
/-- The second weight matrix. -/
theorem weights2_V5 (c : Dev nD) : V5 m ρ c main_arg4 = m ((c : Thread nD τ).loc main_arg4) := by
  show after hostOps1 (W4 m ρ c) (Proc.devRef .tc main_arg4) = _
  after_results_simp
  exact weights2_W4 m ρ c

end Cert.KernelIdeal.Mid

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Pay.lean ====
/-
  What each kernel body stores, read at one entry of its block, at the ideal values.

  The first body stores the product of its block of node features (5000 × 32) with the whole first weight matrix:
  the two narrowing format changes are the identity on extended reals and the product into a zero accumulator is
  the plain sum, so entry (p, q) is the sum over k of x(p, k) · w(k, q).

  The second body adds the one-row bias table to every row of its block of aggregated messages, takes the
  hyperbolic tangent, multiplies by the whole second weight matrix and adds the second one-row bias table to every
  row: entry (p, q) is (sum over k of tanh(a(p, k) + b1(0, k)) · w2(k, q)) + b2(0, q). The casts of a shape to
  itself are the identity.
-/
import proofs.«120500_j472446402806_1_alg».proof.Proof.Gen.KernelIdeal.Skeleton
import proofs.«120500_j472446402806_1_alg».proof.Proof.LibPlainDot
import proofs.«120500_j472446402806_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The first body's stored block at entry (p, q). -/
theorem pay0_apply (x0 : Vec Ideal S5000x32 .f32) (x1 : Vec Ideal S32x64 .f32) (p : Fin 5000) (q : Fin 64) :
    k0_pay1 (F := Ideal) x0 x1 (ix2 p q) = ∑ k : Fin 32, x0 (ix2 p k) * x1 (ix2 k q) := by
  unfold k0_pay1
  exact Cert.LibPlainDot.matmul_zero_apply dot_S5000x32_S32x64_S5000x64_1_0_0_1_n_n rfl rfl rfl rfl rfl rfl none _ _ p q

/-- The second body's stored block at entry (p, q). -/
theorem pay1_apply (v0 : Vec Ideal S5000x64 .f32) (v2 : Vec Ideal S1x64 .f32) (v8 : Vec Ideal S64x8 .f32)
    (v11 : Vec Ideal S1x8 .f32) (p : Fin 5000) (q : Fin 8) :
    k1_pay1 (F := Ideal) v0 v2 v8 v11 (ix2 p q)
      = (∑ k : Fin 64, Ideal.tanh (v0 (ix2 p k) + v2 (ix2 (0 : Fin 1) k)) * v8 (ix2 k q)) + v11 (ix2 (0 : Fin 1) q) := by
  unfold k1_pay1
  simp only [shapeCast_self]
  refine (addf_apply _ _ _).trans ?_
  rw [Idealize.ShloMosaic.RowBroadcast.broadcastTo_row]
  refine congrArg (· + v11 (ix2 (0 : Fin 1) q))
    ((Cert.LibPlainDot.matmul_zero_apply dot_S5000x64_S64x8_S5000x8_1_0_0_1_n_n rfl rfl rfl rfl rfl rfl none _ _ p q).trans
      (Finset.sum_congr rfl fun k _ => ?_))
  show Ideal.tanh (v0 (ix2 p k) + broadcastTo S5000x64 v2 broadcasts_S1x64_S5000x64 (ix2 p k)) * v8 (ix2 k q) = _
  rw [Idealize.ShloMosaic.RowBroadcast.broadcastTo_row]

end Cert.KernelIdeal.Pay

end
-- ==== Proof.Region0.lean ====
/-
  The first kernel region, from blocks to the whole array.

  The region walks the node features in twenty blocks of 5000 rows. At block t it reads rows 5000·t … 5000·t + 4999
  of the features (all 32 columns) and the whole first weight matrix, and writes back rows 5000·t … 5000·t + 4999 of
  the product. Entry (p, q) of what block t writes is the sum over k of x(5000·t + p, k) · w(k, q), which is entry
  (5000·t + p, q) of `Spec.lin1 x w`; every row r of the array lies in block r / 5000, so after the region the array
  holds `Spec.lin1 x w`. The statement is for any contents `V` the region may be entered from.
-/
import proofs.«120500_j472446402806_1_alg».proof.Proof.Gen.KernelIdeal.Frame
import proofs.«120500_j472446402806_1_alg».proof.Proof.Pay
import proofs.«120500_j472446402806_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the twenty points: the feature and product blocks move down with the point, the
    weight block stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (5000·t + p, k) of the feature array. -/
theorem read_features (c : Dev nD) (t : Fin cfg0.N) (p : Fin 5000) (k : Fin 32) (a : Fin 100000)
    (ha : a.val = t.val * 5000 + p.val) :
    iblk0 V c 0 t (ix2 p k) = V c main_arg0 (ix2 a k) := by
  obtain ⟨e0, e1, -, -, -, -⟩ := index_maps t
  show V c main_arg0 (((cfg0.win 0).blk t).view.emb (ix2 p k)) = V c main_arg0 (ix2 a k)
  refine congrArg (V c main_arg0) (funext fun ax => Fin.ext ?_)
  match ax with
  | ⟨0, _⟩ => show win0_0.index t (0 : Fin 2) * 5000 + 1 * p.val = a.val; omega
  | ⟨1, _⟩ => show win0_0.index t (1 : Fin 2) * 32 + 1 * k.val = k.val; omega

/-- The weight block at any point is the whole weight matrix. -/
theorem read_weights (c : Dev nD) (t : Fin cfg0.N) (k : Fin 32) (q : Fin 64) :
    iblk0 V c 1 t (ix2 k q) = V c main_arg2 (ix2 k q) := by
  obtain ⟨-, -, e2, e3, -, -⟩ := index_maps t
  show V c main_arg2 (((cfg0.win 1).blk t).view.emb (ix2 k q)) = V c main_arg2 (ix2 k q)
  refine congrArg (V c main_arg2) (funext fun ax => Fin.ext ?_)
  match ax with
  | ⟨0, _⟩ => show win0_1.index t (0 : Fin 2) * 32 + 1 * k.val = k.val; omega
  | ⟨1, _⟩ => show win0_1.index t (1 : Fin 2) * 64 + 1 * q.val = q.val; omega

/-- What point t writes back is block t of the product of the whole arrays. -/
theorem flushed_eq (c : Dev nD) (t : Fin cfg0.N) :
    (dat0 V c).flushed 2 t
      = ((cfg0.win 2).blk t).view.read (Elt Ideal) (Spec.lin1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x32) zero_offsets, View.ld_unit_zero (S := S32x64) zero_offsets]
  obtain ⟨-, -, -, -, e4, e5⟩ := index_maps t
  have hN : grid0.N = 20 := N_0
  have ht : t.val < grid0.N := t.isLt
  funext j
  obtain ⟨p, q, rfl⟩ : ∃ (p : Fin 5000) (q : Fin 64), j = ix2 p q := ⟨j 0, j 1, eq_ix2 j⟩
  have hp : p.val < 5000 := p.isLt
  have ha : t.val * 5000 + p.val < 100000 := by omega
  show k0_pay1 (iblk0 V c 0 t) (iblk0 V c 1 t) (ix2 p q)
    = Spec.lin1 (V c main_arg0) (V c main_arg2) (((cfg0.win 2).blk t).view.emb (ix2 p q))
  refine (Pay.pay0_apply (iblk0 V c 0 t) (iblk0 V c 1 t) p q).trans ?_
  have hi : ((cfg0.win 2).blk t).view.emb (ix2 p q) = ix2 (⟨t.val * 5000 + p.val, ha⟩ : Fin 100000) q :=
    funext fun ax => Fin.ext (by
      match ax with
      | ⟨0, _⟩ => show win0_2.index t (0 : Fin 2) * 5000 + 1 * p.val = t.val * 5000 + p.val; omega
      | ⟨1, _⟩ => show win0_2.index t (1 : Fin 2) * 64 + 1 * q.val = q.val; omega)
  refine Eq.trans ?_ (congrArg (Spec.lin1 (V c main_arg0) (V c main_arg2)) hi.symm)
  refine Eq.trans ?_ (Spec.lin1_apply _ _ _ _).symm
  refine Finset.sum_congr rfl fun k _ => ?_
  rw [read_features V c t p k ⟨_, ha⟩ rfl, read_weights V c t k q]

/-- Membership in point t's block of the product array, coordinate by coordinate. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- Row r of the product array lies in block r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have hlt : (i 0).val / 5000 < grid0.N := by omega
  obtain ⟨-, -, -, -, e4, e5⟩ := index_maps ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    have e4' : win0_2.index ⟨(i 0).val / 5000, hlt⟩ (0 : Fin 2) = (i 0).val / 5000 := e4
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    omega

/-- After the region the product array holds the product of the feature array and the weight matrix. -/
theorem arr (c : Dev nD) :
    (dat0 V c).arrAt 2 cfg0.N = Spec.lin1 (V c main_arg0) (V c main_arg2) :=
  (dat0 V c).arrAt_eq_of_cover 2 (Spec.lin1 (V c main_arg0) (V c main_arg2)) (fun t _ => flushed_eq V c t) cover

end Cert.KernelIdeal.Region0

end
-- ==== Proof.Region1.lean ====
/-
  The second kernel region, from blocks to the whole array.

  The region walks the aggregated messages in twenty blocks of 5000 rows. At block t it reads rows
  5000·t … 5000·t + 4999 of the messages (all 64 columns), the whole one-row table of the first bias, the whole
  second weight matrix and the whole one-row table of the second bias, and writes back rows 5000·t … 5000·t + 4999 of
  the output. Entry (p, q) of what block t writes is entry (5000·t + p, q) of `Spec.headRows` of the four arrays;
  every row r of the output lies in block r / 5000, so after the region the output array holds `Spec.headRows` of
  them. The statement is for any contents `V` the region may be entered from.
-/
import proofs.«120500_j472446402806_1_alg».proof.Proof.Gen.KernelIdeal.Frame
import proofs.«120500_j472446402806_1_alg».proof.Proof.Pay
import proofs.«120500_j472446402806_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the twenty points: the message and output blocks move down with the point, the two
    bias rows and the weight block stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the message block at point t is entry (5000·t + p, k) of the message array. -/
theorem read_messages (c : Dev nD) (t : Fin cfg1.N) (p : Fin 5000) (k : Fin 64) (a : Fin 100000)
    (ha : a.val = t.val * 5000 + p.val) :
    iblk1 V c 0 t (ix2 p k) = V c main_v44 (ix2 a k) := by
  obtain ⟨e0, e1, -⟩ := index_maps t
  show V c main_v44 (((cfg1.win 0).blk t).view.emb (ix2 p k)) = V c main_v44 (ix2 a k)
  refine congrArg (V c main_v44) (funext fun ax => Fin.ext ?_)
  match ax with
  | ⟨0, _⟩ => show win1_0.index t (0 : Fin 2) * 5000 + 1 * p.val = a.val; omega
  | ⟨1, _⟩ => show win1_0.index t (1 : Fin 2) * 64 + 1 * k.val = k.val; omega

/-- The first bias block at any point is the whole one-row table. -/
theorem read_bias1 (c : Dev nD) (t : Fin cfg1.N) (k : Fin 64) :
    iblk1 V c 1 t (ix2 (0 : Fin 1) k) = V c main_v45 (ix2 (0 : Fin 1) k) := by
  obtain ⟨-, -, e2, e3, -⟩ := index_maps t
  show V c main_v45 (((cfg1.win 1).blk t).view.emb (ix2 (0 : Fin 1) k)) = V c main_v45 (ix2 (0 : Fin 1) k)
  refine congrArg (V c main_v45) (funext fun ax => Fin.ext ?_)
  match ax with
  | ⟨0, _⟩ => show win1_1.index t (0 : Fin 2) * 1 + 1 * 0 = 0; omega
  | ⟨1, _⟩ => show win1_1.index t (1 : Fin 2) * 64 + 1 * k.val = k.val; omega

/-- The weight block at any point is the whole second weight matrix. -/
theorem read_weights (c : Dev nD) (t : Fin cfg1.N) (k : Fin 64) (q : Fin 8) :
    iblk1 V c 2 t (ix2 k q) = V c main_arg4 (ix2 k q) := by
  obtain ⟨-, -, -, -, e4, e5, -⟩ := index_maps t
  show V c main_arg4 (((cfg1.win 2).blk t).view.emb (ix2 k q)) = V c main_arg4 (ix2 k q)
  refine congrArg (V c main_arg4) (funext fun ax => Fin.ext ?_)
  match ax with
  | ⟨0, _⟩ => show win1_2.index t (0 : Fin 2) * 64 + 1 * k.val = k.val; omega
  | ⟨1, _⟩ => show win1_2.index t (1 : Fin 2) * 8 + 1 * q.val = q.val; omega

/-- The second bias block at any point is the whole one-row table. -/
theorem read_bias2 (c : Dev nD) (t : Fin cfg1.N) (q : Fin 8) :
    iblk1 V c 3 t (ix2 (0 : Fin 1) q) = V c main_v46 (ix2 (0 : Fin 1) q) := by
  obtain ⟨-, -, -, -, -, -, e6, e7, -⟩ := index_maps t
  show V c main_v46 (((cfg1.win 3).blk t).view.emb (ix2 (0 : Fin 1) q)) = V c main_v46 (ix2 (0 : Fin 1) q)
  refine congrArg (V c main_v46) (funext fun ax => Fin.ext ?_)
  match ax with
  | ⟨0, _⟩ => show win1_3.index t (0 : Fin 2) * 1 + 1 * 0 = 0; omega
  | ⟨1, _⟩ => show win1_3.index t (1 : Fin 2) * 8 + 1 * q.val = q.val; omega

/-- What point t writes back is block t of the output layer of the whole arrays. -/
theorem flushed_eq (c : Dev nD) (t : Fin cfg1.N) :
    (dat1 V c).flushed 4 t
      = ((cfg1.win 4).blk t).view.read (Elt Ideal)
          (Spec.headRows (V c main_v44) (V c main_v45) (V c main_arg4) (V c main_v46)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S1x64) zero_offsets,
    View.ld_unit_zero (S := S64x8) zero_offsets, View.ld_unit_zero (S := S1x8) zero_offsets]
  obtain ⟨-, -, -, -, -, -, -, -, e8, e9⟩ := index_maps t
  have hN : grid1.N = 20 := N_1
  have ht : t.val < grid1.N := t.isLt
  funext j
  obtain ⟨p, q, rfl⟩ : ∃ (p : Fin 5000) (q : Fin 8), j = ix2 p q := ⟨j 0, j 1, eq_ix2 j⟩
  have hp : p.val < 5000 := p.isLt
  have ha : t.val * 5000 + p.val < 100000 := by omega
  show k1_pay1 (iblk1 V c 0 t) (iblk1 V c 1 t) (iblk1 V c 2 t) (iblk1 V c 3 t) (ix2 p q)
    = Spec.headRows (V c main_v44) (V c main_v45) (V c main_arg4) (V c main_v46) (((cfg1.win 4).blk t).view.emb (ix2 p q))
  refine (Pay.pay1_apply (iblk1 V c 0 t) (iblk1 V c 1 t) (iblk1 V c 2 t) (iblk1 V c 3 t) p q).trans ?_
  have hi : ((cfg1.win 4).blk t).view.emb (ix2 p q) = ix2 (⟨t.val * 5000 + p.val, ha⟩ : Fin 100000) q :=
    funext fun ax => Fin.ext (by
      match ax with
      | ⟨0, _⟩ => show win1_4.index t (0 : Fin 2) * 5000 + 1 * p.val = t.val * 5000 + p.val; omega
      | ⟨1, _⟩ => show win1_4.index t (1 : Fin 2) * 8 + 1 * q.val = q.val; omega)
  refine Eq.trans ?_ (congrArg (Spec.headRows (V c main_v44) (V c main_v45) (V c main_arg4) (V c main_v46)) hi.symm)
  refine Eq.trans ?_ (Spec.headRows_apply _ _ _ _ _ _).symm
  rw [read_bias2 V c t q]
  refine congrArg (· + V c main_v46 (ix2 (0 : Fin 1) q)) (Finset.sum_congr rfl fun k _ => ?_)
  rw [read_messages V c t p k ⟨_, ha⟩ rfl, read_bias1 V c t k, read_weights V c t k q]

/-- Membership in point t's block of the output array, coordinate by coordinate. -/
theorem mem_blk (t : Fin cfg1.N) (i : S100000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v47).slice (win1_4.rect t)).set ↔ _
  rw [View.set_slice_whole, Rect.mem_set_unit]
  exact Iff.rfl

/-- Row r of the output array lies in block r / 5000. -/
theorem cover (i : S100000x8.Idx) :
    ∃ t : Fin cfg1.N, (cfg1.win 4).flush t = true ∧ i ∈ ((cfg1.win 4).blk t).view.set := by
  have hi0 : (i 0).val < 100000 := (i 0).isLt
  have hi1 : (i 1).val < 8 := (i 1).isLt
  have hN : grid1.N = 20 := N_1
  have hlt : (i 0).val / 5000 < grid1.N := by omega
  obtain ⟨-, -, -, -, -, -, -, -, e8, e9⟩ := index_maps ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    have e8' : win1_4.index ⟨(i 0).val / 5000, hlt⟩ (0 : Fin 2) = (i 0).val / 5000 := e8
    omega
  | ⟨1, _⟩ =>
    show win1_4.index ⟨(i 0).val / 5000, hlt⟩ (1 : Fin 2) * 8 ≤ (i 1).val
      ∧ (i 1).val < win1_4.index ⟨(i 0).val / 5000, hlt⟩ (1 : Fin 2) * 8 + 8
    omega

/-- After the region the output array holds the output layer of the message array, the two one-row bias tables and
    the second weight matrix. -/
theorem arr (c : Dev nD) :
    (dat1 V c).arrAt 4 cfg1.N = Spec.headRows (V c main_v44) (V c main_v45) (V c main_arg4) (V c main_v46) :=
  (dat1 V c).arrAt_eq_of_cover 4 (Spec.headRows (V c main_v44) (V c main_v45) (V c main_arg4) (V c main_v46))
    (fun t _ => flushed_eq V c t) cover

end Cert.KernelIdeal.Region1

end
-- ==== Proof.KernelValue.lean ====
/-
  The kernel program's result as one function of its six argument arrays, at the ideal values.

  The result array is the second region's output, which is the output layer of what that region is entered from:
  the aggregated messages, the two biases as one-row tables and the second weight matrix. The aggregated messages are
  the aggregation of the first region's output and the edge list; the first region's output is the first dense layer
  of the feature array and the first weight matrix as launched. With the one-row tables read back as the bias vectors
  this is the network the reference computes.
-/
import proofs.«120500_j472446402806_1_alg».proof.Proof.KernelRun
import proofs.«120500_j472446402806_1_alg».proof.Proof.KernelMid
import proofs.«120500_j472446402806_1_alg».proof.Proof.Region0
import proofs.«120500_j472446402806_1_alg».proof.Proof.Region1

set_option maxRecDepth 16384

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first region its output array holds the first dense layer of the launched features and weights. -/
theorem product_V4 (c : Dev nD) :
    V4 m ρ c main_v31 = Cert.Spec.lin1 (m ((c : Thread nD τ).loc main_arg0)) (m ((c : Thread nD τ).loc main_arg2)) := by
  rw [show V4 m ρ c main_v31 = (dat0 (V3 m ρ) c).arrAt 2 cfg0.N from W4_arr m ρ c 2, Region0.arr (V3 m ρ) c,
    Mid.features_V3, Mid.weights1_V3]

/-- The result array after the run is the network of the launched arguments. -/
theorem result (c : Dev nD) :
    W6 m ρ c (Proc.devRef .tc main_v47)
      = Cert.ReferenceIdeal.RefValue.network (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [show W6 m ρ c (Proc.devRef .tc main_v47) = (dat1 (V5 m ρ) c).arrAt 4 cfg1.N from W6_arr m ρ c 4,
    Region1.arr (V5 m ρ) c, Mid.messages_V5, Mid.bias1_V5, Mid.bias2_V5, Mid.weights2_V5, product_V4]
  exact Cert.Spec.headRows_reshape _ _ _ _ _ _

end Cert.KernelIdeal.RunValue

end
-- ==== Proof.lean ====
/-
  The kernel runs a two-layer graph network: a dense layer on the node features, an aggregation of the transformed
  features over the edges (with self loops and symmetric degree normalisation), and an output layer (bias, tanh, a
  second dense layer, bias). Its two dense layers are tiled kernel regions over twenty blocks of 5000 nodes; the
  aggregation between them is the same sequence of host operations the reference applies.

  At the ideal values the narrowing format changes inside the regions are the identity and a matrix product into a
  zero accumulator is the plain sum, so each region leaves in its output array exactly the reference's dense layer of
  the region's inputs (Proof/Region0.lean, Proof/Region1.lean over Proof/Pay.lean and Proof/Spec.lean). The host
  stretches are identified with the reference's stages as they stand, the aggregation carried as one function that
  is never opened (Proof/KernelMid.lean, Proof/RefValue.lean). Both programs therefore end with the one function
  `network` of the six arguments (Proof/KernelValue.lean for the kernel's run, Proof/RefValue.lean for the
  reference's). No law of arithmetic is used, so the finiteness of the inputs is not needed.

  The three frame claims are the runs themselves with the result dropped; the idealisation rewrote nothing.
-/
import proofs.«120500_j472446402806_1_alg».proof.Defs
import proofs.«120500_j472446402806_1_alg».proof.Proof.Gen.Kernel
import proofs.«120500_j472446402806_1_alg».proof.Proof.Gen.Kernel.Skeleton
import proofs.«120500_j472446402806_1_alg».proof.Proof.Gen.Kernel.Launch
import proofs.«120500_j472446402806_1_alg».proof.Proof.Gen.Kernel.Points
import proofs.«120500_j472446402806_1_alg».proof.Proof.Gen.Kernel.Frame
import proofs.«120500_j472446402806_1_alg».proof.Proof.Gen.KernelIdeal
import proofs.«120500_j472446402806_1_alg».proof.Proof.Gen.KernelIdeal.Skeleton
import proofs.«120500_j472446402806_1_alg».proof.Proof.Gen.KernelIdeal.Launch
import proofs.«120500_j472446402806_1_alg».proof.Proof.Gen.KernelIdeal.Points
import proofs.«120500_j472446402806_1_alg».proof.Proof.Gen.KernelIdeal.Frame
import proofs.«120500_j472446402806_1_alg».proof.Proof.Gen.ReferenceIdeal
import proofs.«120500_j472446402806_1_alg».proof.Proof.Gen.Pre_finite_inputs
import proofs.«120500_j472446402806_1_alg».proof.Proof.KernelValue
import proofs.«120500_j472446402806_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments. -/
theorem algebraic : Cert.algebraic_KernelIdeal_ReferenceIdeal := by
  intro m ρ m' ρ' _ hagree
  refine ⟨fun c => Cert.ReferenceIdeal.RefValue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.RunValue.result m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Cert.ReferenceIdeal.RefValue.network_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
